-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S256x128 .f32) (main_arg9 : FVec F S128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S64 .f32) (main_arg6 : FVec F S64x256 .f32) (main_arg7 : FVec F S256 .f32) (main_arg8 : FVec F S256x128 .f32) (main_arg9 : FVec F S128 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x256 .f32 := Host.absf main_arg6
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x256 .f32) (main_arg3 : FVec F S256 .f32) (main_arg4 : FVec F S256x64 .f32) (main_arg5 : FVec F S64 .f32) (main_arg6 : FVec F S64x256 .f32) (main_arg7 : FVec F S256 .f32) (main_arg8 : FVec F S256x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x64 : Shape := ⟨2, ![1, 64]⟩
abbrev S50000x64 : Shape := ⟨2, ![50000, 64]⟩
abbrev S5000x64 : Shape := ⟨2, ![5000, 64]⟩
abbrev S850000x64 : Shape := ⟨2, ![850000, 64]⟩
abbrev S1x128 : Shape := ⟨2, ![1, 128]⟩

abbrev nBuf : Space → Nat
  | .hbm => 103
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .f32⟩
  | .hbm, ⟨51, _⟩ => ⟨S256, .f32⟩
  | .hbm, ⟨52, _⟩ => ⟨S1x256, .f32⟩
  | .hbm, ⟨53, _⟩ => ⟨S50000x256, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x256, .f32⟩
  | .hbm, ⟨63, _⟩ => ⟨S850000x1, .f32⟩
  | .hbm, ⟨64, _⟩ => ⟨S850000x256, .f32⟩
  | .hbm, ⟨65, _⟩ => ⟨S850000x256, .f32⟩
  | .hbm, ⟨66, _⟩ => ⟨S_, .f32⟩
  | .hbm, ⟨67, _⟩ => ⟨S50000x256, .f32⟩
  | .hbm, ⟨68, _⟩ => ⟨S850000x1, .i32⟩
  | .hbm, ⟨69, _⟩ => ⟨S50000x256, .f32⟩
  | .hbm, ⟨70, _⟩ => ⟨S1x256, .f32⟩
  | .hbm, ⟨71, _⟩ => ⟨S50000x256, .f32⟩
  | .hbm, ⟨72, _⟩ => ⟨S50000x256, .f32⟩
  | .hbm, ⟨73, _⟩ => ⟨S_, .f32⟩
  | .hbm, ⟨74, _⟩ => ⟨S50000x256, .f32⟩
  | .hbm, ⟨75, _⟩ => ⟨S50000x256, .f32⟩
  | .hbm, ⟨76, _⟩ => ⟨S_, .f32⟩
  | .hbm, ⟨77, _⟩ => ⟨S64, .f32⟩
  | .hbm, ⟨78, _⟩ => ⟨S1x64, .f32⟩
  | .hbm, ⟨79, _⟩ => ⟨S50000x64, .f32⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000x64, .f32⟩
  | .hbm, ⟨89, _⟩ => ⟨S850000x1, .f32⟩
  | .hbm, ⟨90, _⟩ => ⟨S850000x64, .f32⟩
  | .hbm, ⟨91, _⟩ => ⟨S850000x64, .f32⟩
  | .hbm, ⟨92, _⟩ => ⟨S_, .f32⟩
  | .hbm, ⟨93, _⟩ => ⟨S50000x64, .f32⟩
  | .hbm, ⟨94, _⟩ => ⟨S850000x1, .i32⟩
  | .hbm, ⟨95, _⟩ => ⟨S50000x64, .f32⟩
  | .hbm, ⟨96, _⟩ => ⟨S1x64, .f32⟩
  | .hbm, ⟨97, _⟩ => ⟨S50000x64, .f32⟩
  | .hbm, ⟨98, _⟩ => ⟨S50000x64, .f32⟩
  | .hbm, ⟨99, _⟩ => ⟨S1x256, .f32⟩
  | .hbm, ⟨100, _⟩ => ⟨S50000x256, .f32⟩
  | .hbm, ⟨101, _⟩ => ⟨S1x128, .f32⟩
  | .hbm, ⟨102, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x256, .f32⟩
  | .local _ .vmem, ⟨15, _⟩ => ⟨S1x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S256x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_c_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S256 : S_.BroadcastsInDim S256 (![] : Fin 0 → Fin S256.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64 : S_.BroadcastsInDim S64 (![] : Fin 0 → Fin S64.rank)
  shapeCasts_S64_S1x64 : S64.ShapeCasts S1x64
  shapeCasts_S5000x256_S5000x256 : S5000x256.ShapeCasts S5000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  inb_S64x256_S64x256_0_0 : ∀ a, (![0, 0] : Fin 2 → Nat) a + S64x256.size a ≤ S64x256.size a
  h_S64x256 : 0 < S64x256.numel
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x64_S5000x64_1_0_0_1_n_n_wf : DotDims.WF S5000x256 S256x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x256_S5000x256_1_0_0_1_n_n_wf : DotDims.WF S5000x64 S64x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S64x256.size a
  hwx2_1 : ∀ i : grid2.Coords, EltTy.bits .f32 = 32 ∨ (Rect.block (s := S64x256) S64x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S50000x256.size a
  hwx2_3 : ∀ i : grid2.Coords, EltTy.bits .f32 = 32 ∨ (Rect.block (s := S50000x256) S5000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v49) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v68) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v70) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩
abbrev S1x128 : Shape := ⟨2, ![1, 128]⟩

abbrev nBuf : Space → Nat
  | .hbm => 144
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256x64, .f32⟩
  | 5 => ⟨S64, .f32⟩
  | 6 => ⟨S64x256, .f32⟩
  | 7 => ⟨S256, .f32⟩
  | 8 => ⟨S256x128, .f32⟩
  | 9 => ⟨S128, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S50000x256, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x256, .f32⟩
  | 60 => ⟨S850000x1, .f32⟩
  | 61 => ⟨S850000x256, .f32⟩
  | 62 => ⟨S850000x256, .f32⟩
  | 63 => ⟨S_, .f32⟩
  | 64 => ⟨S50000x256, .f32⟩
  | 65 => ⟨S850000x1, .i32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S50000x256, .f32⟩
  | 72 => ⟨S50000x256, .f32⟩
  | 73 => ⟨S50000, .i32⟩
  | 74 => ⟨S1x800000, .i32⟩
  | 75 => ⟨S800000, .i32⟩
  | 76 => ⟨S850000, .i32⟩
  | 77 => ⟨S1x800000, .i32⟩
  | 78 => ⟨S800000, .i32⟩
  | 79 => ⟨S850000, .i32⟩
  | 80 => ⟨S_, .f32⟩
  | 81 => ⟨S850000, .f32⟩
  | 82 => ⟨S_, .f32⟩
  | 83 => ⟨S50000, .f32⟩
  | 84 => ⟨S850000x1, .i32⟩
  | 85 => ⟨S50000, .f32⟩
  | 86 => ⟨S_, .f32⟩
  | 87 => ⟨S50000, .f32⟩
  | 88 => ⟨S50000, .i1⟩
  | 89 => ⟨S50000, .f32⟩
  | 90 => ⟨S_, .f32⟩
  | 91 => ⟨S_, .f32⟩
  | 92 => ⟨S50000, .f32⟩
  | 93 => ⟨S50000, .f32⟩
  | 94 => ⟨S50000x64, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S850000, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x64, .f32⟩
  | 123 => ⟨S850000x1, .f32⟩
  | 124 => ⟨S850000x64, .f32⟩
  | 125 => ⟨S850000x64, .f32⟩
  | 126 => ⟨S_, .f32⟩
  | 127 => ⟨S50000x64, .f32⟩
  | _ => ⟨S50000x128, .f32⟩

abbrev hbmTy0_1 (i : Nat) : BufTy := match i % 128 with
  | 0 => ⟨S850000x1, .i32⟩
  | 1 => ⟨S50000x64, .f32⟩
  | 2 => ⟨S1x64, .f32⟩
  | 3 => ⟨S50000x64, .f32⟩
  | 4 => ⟨S50000x64, .f32⟩
  | 5 => ⟨S50000x256, .f32⟩
  | 6 => ⟨S1x256, .f32⟩
  | 7 => ⟨S50000x256, .f32⟩
  | 8 => ⟨S50000x256, .f32⟩
  | 9 => ⟨S_, .f32⟩
  | 10 => ⟨S50000x256, .f32⟩
  | 11 => ⟨S50000x256, .f32⟩
  | 12 => ⟨S50000x128, .f32⟩
  | 13 => ⟨S1x128, .f32⟩
  | 14 => ⟨S50000x128, .f32⟩
  | 15 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v62 : Ref sig .tc := ⟨.hbm, 93, rfl⟩
abbrev main_v63 : Ref sig .tc := ⟨.hbm, 94, rfl⟩
abbrev main_c_13 : Ref sig .tc := ⟨.hbm, 95, rfl⟩
abbrev main_v64 : Ref sig .tc := ⟨.hbm, 96, rfl⟩
abbrev main_v65 : Ref sig .tc := ⟨.hbm, 97, rfl⟩
abbrev main_c_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_15 : Ref sig .tc := ⟨.hbm, 104, rfl⟩
abbrev main_v71 : Ref sig .tc := ⟨.hbm, 105, rfl⟩
abbrev main_v72 : Ref sig .tc := ⟨.hbm, 106, rfl⟩
abbrev main_c_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_17 : Ref sig .tc := ⟨.hbm, 114, rfl⟩
abbrev main_v79 : Ref sig .tc := ⟨.hbm, 115, rfl⟩
abbrev main_v80 : Ref sig .tc := ⟨.hbm, 116, rfl⟩
abbrev main_c_18 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_19 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_call3_cst : Ref sig .tc := ⟨.hbm, 137, rfl⟩
abbrev main_call3_v0 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  dot_S50000x128_S128x256_S50000x256_1_0_0_1_n_n_wf : DotDims.WF S50000x128 S128x256 S50000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x256_S50000x256_1_0_0_1_n_n_wf : DotDims.WF S50000x64 S64x256 S50000x256 [1] [0] [0] [1] [] []
  dot_S50000x256_S256x128_S50000x128_1_0_0_1_n_n_wf : DotDims.WF S50000x256 S256x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.DenseRows.lean ====
/-
  A dense layer of a whole row-major array, one function of the array index.

  The kernels of this program cut an array of R rows into blocks of rows, multiply each block by the whole
  weight matrix and add one row of bias; the host multiplies the whole array at once.  Both are the function
  `rows`: entry (n, h) is the sum over k of x (n, k) · W (k, h), plus the bias row at h.  This file states that
  function, reads a block's payload at an index of the block in both of the kernels' spellings (with and
  without the positive part), and reads the host's three spellings of the layer — no bias, a bias broadcast
  in two steps, the same followed by the positive part — as `rows` of a bias reshaped to one row.
  Everything is generic in the extents.
-/
import proofs.«134820_j16853451670120_1_alg».proof.Proof.LibRowOps

noncomputable section

open scoped BigOperators

namespace DenseRows

open Idealize.ShloMosaic Idealize.ShloMosaic.ValueIdx RowOps

variable {R B K H : ℕ}

/-- The dense layer of a whole array: row n of `x` against column h of `W`, plus the bias row's entry h. -/
def rows (x : (⟨2, ![R, K]⟩ : Shape).Idx → EReal) (W : (⟨2, ![K, H]⟩ : Shape).Idx → EReal)
    (b1 : (⟨2, ![1, H]⟩ : Shape).Idx → EReal) : (⟨2, ![R, H]⟩ : Shape).Idx → EReal :=
  fun i => (∑ k : Fin K, x (ix2 (⟨(i 0).val, (i 0).isLt⟩ : Fin R) k) * W (ix2 k (⟨(i 1).val, (i 1).isLt⟩ : Fin H)))
    + b1 (ix2 (0 : Fin 1) (⟨(i 1).val, (i 1).isLt⟩ : Fin H))

theorem rows_apply (x : (⟨2, ![R, K]⟩ : Shape).Idx → EReal) (W : (⟨2, ![K, H]⟩ : Shape).Idx → EReal)
    (b1 : (⟨2, ![1, H]⟩ : Shape).Idx → EReal) (n : Fin R) (h : Fin H) :
    rows x W b1 (ix2 n h) = (∑ k : Fin K, x (ix2 n k) * W (ix2 k h)) + b1 (ix2 (0 : Fin 1) h) := rfl

/-- The same layer followed by the positive part. -/
def rowsPos (x : (⟨2, ![R, K]⟩ : Shape).Idx → EReal) (W : (⟨2, ![K, H]⟩ : Shape).Idx → EReal)
    (b1 : (⟨2, ![1, H]⟩ : Shape).Idx → EReal) : (⟨2, ![R, H]⟩ : Shape).Idx → EReal :=
  fun i => max (rows x W b1 i) (Ideal.ofBits .f32 0x00000000#32)

theorem rowsPos_apply (x : (⟨2, ![R, K]⟩ : Shape).Idx → EReal) (W : (⟨2, ![K, H]⟩ : Shape).Idx → EReal)
    (b1 : (⟨2, ![1, H]⟩ : Shape).Idx → EReal) (n : Fin R) (h : Fin H) :
    rowsPos x W b1 (ix2 n h)
      = max ((∑ k : Fin K, x (ix2 n k) * W (ix2 k h)) + b1 (ix2 (0 : Fin 1) h)) (Ideal.ofBits .f32 0x00000000#32) := rfl

/-! ## A block's payload at an index of the block -/

/-- Entry (p, q) of the layer on a block: row p of the block against column q of the weights, plus the bias row's entry q. -/
def entry (xb : (⟨2, ![B, K]⟩ : Shape).Idx → EReal) (W : (⟨2, ![K, H]⟩ : Shape).Idx → EReal)
    (bb : (⟨2, ![1, H]⟩ : Shape).Idx → EReal) (p : Fin B) (q : Fin H) : EReal :=
  (∑ k : Fin K, xb (ix2 p k) * W (ix2 k q)) + bb (ix2 (0 : Fin 1) q)

/-- The same entry after the positive part. -/
def entryPos (xb : (⟨2, ![B, K]⟩ : Shape).Idx → EReal) (W : (⟨2, ![K, H]⟩ : Shape).Idx → EReal)
    (bb : (⟨2, ![1, H]⟩ : Shape).Idx → EReal) (p : Fin B) (q : Fin H) : EReal :=
  max (entry xb W bb p q) (Ideal.ofBits .f32 0x00000000#32)

/-- The kernel's layer on a block of B rows: the narrowed operands' product into the zero splat, plus the
    loaded bias row broadcast down the block's rows. -/
theorem block_apply (d : DotDims ⟨2, ![B, K]⟩ ⟨2, ![K, H]⟩ ⟨2, ![B, H]⟩) (hd : d = DotDims.plain B K H)
    (xb : FVec Ideal ⟨2, ![B, K]⟩ .f32) (W : FVec Ideal ⟨2, ![K, H]⟩ .f32) (b1 : FVec Ideal ⟨2, ![1, H]⟩ .f32)
    (hy : FTy.bf16.bits < FTy.f32.bits) (hW : FTy.bf16.bits < FTy.f32.bits)
    (hbc : (⟨2, ![1, H]⟩ : Shape).Broadcasts ⟨2, ![B, H]⟩) (p : Fin B) (q : Fin H) :
    addf (matmul d none (truncf .bf16 xb hy) (truncf .bf16 W hW) (constant ⟨2, ![B, H]⟩ .f32 0x00000000#32))
        (broadcastTo ⟨2, ![B, H]⟩ b1 hbc) (ix2 p q)
      = entry xb W b1 p q := by
  show matmul d none (truncf .bf16 xb hy) (truncf .bf16 W hW) (constant ⟨2, ![B, H]⟩ .f32 0x00000000#32) (ix2 p q)
      + broadcastTo ⟨2, ![B, H]⟩ b1 hbc (ix2 p q) = _
  rw [matmul_plain_apply d hd, broadcastTo_1b_ab_apply]
  rfl

/-- The same with the positive part taken against a splat of the zero word. -/
theorem blockPos_apply (d : DotDims ⟨2, ![B, K]⟩ ⟨2, ![K, H]⟩ ⟨2, ![B, H]⟩) (hd : d = DotDims.plain B K H)
    (xb : FVec Ideal ⟨2, ![B, K]⟩ .f32) (W : FVec Ideal ⟨2, ![K, H]⟩ .f32) (b1 : FVec Ideal ⟨2, ![1, H]⟩ .f32)
    (hy : FTy.bf16.bits < FTy.f32.bits) (hW : FTy.bf16.bits < FTy.f32.bits)
    (hbc : (⟨2, ![1, H]⟩ : Shape).Broadcasts ⟨2, ![B, H]⟩) (p : Fin B) (q : Fin H) :
    maximumf (addf (matmul d none (truncf .bf16 xb hy) (truncf .bf16 W hW) (constant ⟨2, ![B, H]⟩ .f32 0x00000000#32))
        (broadcastTo ⟨2, ![B, H]⟩ b1 hbc))
        (broadcast ⟨2, ![B, H]⟩ (Scalar.ofBits (F := Ideal) .f32 0x00000000#32)) (ix2 p q)
      = entryPos xb W b1 p q := by
  show max (addf (matmul d none (truncf .bf16 xb hy) (truncf .bf16 W hW) (constant ⟨2, ![B, H]⟩ .f32 0x00000000#32))
        (broadcastTo ⟨2, ![B, H]⟩ b1 hbc) (ix2 p q)) (Ideal.ofBits .f32 0x00000000#32) = _
  rw [block_apply d hd xb W b1 hy hW hbc p q]
  rfl

/-! ## From a block to the array -/

/-- An entry of `rows` from a block's entry: the block's rows are rows of `x`, the weight block is `W`, the bias
    block the bias row, each read where the array index `i` says. -/
theorem rows_of_block (x : (⟨2, ![R, K]⟩ : Shape).Idx → EReal) (W : (⟨2, ![K, H]⟩ : Shape).Idx → EReal)
    (b1 : (⟨2, ![1, H]⟩ : Shape).Idx → EReal) (xb : (⟨2, ![B, K]⟩ : Shape).Idx → EReal)
    (Wb : (⟨2, ![K, H]⟩ : Shape).Idx → EReal) (bb : (⟨2, ![1, H]⟩ : Shape).Idx → EReal)
    (i : (⟨2, ![R, H]⟩ : Shape).Idx) (p : Fin B) (q : Fin H)
    (hx : ∀ k : Fin K, xb (ix2 p k) = x (ix2 (⟨(i 0).val, (i 0).isLt⟩ : Fin R) k))
    (hW : ∀ k : Fin K, Wb (ix2 k q) = W (ix2 k (⟨(i 1).val, (i 1).isLt⟩ : Fin H)))
    (hb : bb (ix2 (0 : Fin 1) q) = b1 (ix2 (0 : Fin 1) (⟨(i 1).val, (i 1).isLt⟩ : Fin H))) :
    entry xb Wb bb p q = rows x W b1 i := by
  unfold rows entry
  rw [hb]
  exact congrArg (· + b1 (ix2 (0 : Fin 1) (⟨(i 1).val, (i 1).isLt⟩ : Fin H)))
    (Finset.sum_congr rfl fun k _ => by rw [hx k, hW k])

/-- The same for the layer followed by the positive part. -/
theorem rowsPos_of_block (x : (⟨2, ![R, K]⟩ : Shape).Idx → EReal) (W : (⟨2, ![K, H]⟩ : Shape).Idx → EReal)
    (b1 : (⟨2, ![1, H]⟩ : Shape).Idx → EReal) (xb : (⟨2, ![B, K]⟩ : Shape).Idx → EReal)
    (Wb : (⟨2, ![K, H]⟩ : Shape).Idx → EReal) (bb : (⟨2, ![1, H]⟩ : Shape).Idx → EReal)
    (i : (⟨2, ![R, H]⟩ : Shape).Idx) (p : Fin B) (q : Fin H)
    (hx : ∀ k : Fin K, xb (ix2 p k) = x (ix2 (⟨(i 0).val, (i 0).isLt⟩ : Fin R) k))
    (hW : ∀ k : Fin K, Wb (ix2 k q) = W (ix2 k (⟨(i 1).val, (i 1).isLt⟩ : Fin H)))
    (hb : bb (ix2 (0 : Fin 1) q) = b1 (ix2 (0 : Fin 1) (⟨(i 1).val, (i 1).isLt⟩ : Fin H))) :
    entryPos xb Wb bb p q = rowsPos x W b1 i := by
  unfold rowsPos entryPos
  rw [rows_of_block x W b1 xb Wb bb i p q hx hW hb]

/-! ## The host's spellings of the layer -/

/-- With the bias row the reshaped zero vector the layer is the bare matrix product. -/
theorem rows_zero_eq_dot (d : DotDims ⟨2, ![R, K]⟩ ⟨2, ![K, H]⟩ ⟨2, ![R, H]⟩) (hd : d = DotDims.plain R K H)
    (x : FVec Ideal ⟨2, ![R, K]⟩ .f32) (W : FVec Ideal ⟨2, ![K, H]⟩ .f32)
    (d0 : Fin 0 → Fin 1) (hb : (⟨0, ![]⟩ : Shape).BroadcastsInDim ⟨1, ![H]⟩ d0)
    (hsc : (⟨1, ![H]⟩ : Shape).ShapeCasts ⟨2, ![1, H]⟩) :
    rows x W (shapeCast ⟨2, ![1, H]⟩ (broadcastInDim ⟨1, ![H]⟩ d0 hb (constant (F := Ideal) ⟨0, ![]⟩ .f32 0x00000000#32)) hsc)
      = Host.dotGeneral d none x W := by
  funext i
  obtain ⟨n, h, rfl⟩ : ∃ (n : Fin R) (h : Fin H), i = ix2 n h := ⟨i 0, i 1, eq_ix2 i⟩
  rw [rows_apply, shapeCast_a_1a_apply, dotGeneral_plain_apply d hd]
  show _ + Ideal.ofBits .f32 0x00000000#32 = _
  rw [Ideal.ofBits_zero_f32, add_zero]

/-- With the bias row a reshaped vector the layer is the product plus the vector broadcast in two steps. -/
theorem rows_eq_dot_add (d : DotDims ⟨2, ![R, K]⟩ ⟨2, ![K, H]⟩ ⟨2, ![R, H]⟩) (hd : d = DotDims.plain R K H)
    (x : FVec Ideal ⟨2, ![R, K]⟩ .f32) (W : FVec Ideal ⟨2, ![K, H]⟩ .f32) (b : FVec Ideal ⟨1, ![H]⟩ .f32)
    (hsc : (⟨1, ![H]⟩ : Shape).ShapeCasts ⟨2, ![1, H]⟩)
    (h1 : (⟨1, ![H]⟩ : Shape).BroadcastsInDim ⟨2, ![1, H]⟩ ![1]) (h2 : (⟨2, ![1, H]⟩ : Shape).BroadcastsInDim ⟨2, ![R, H]⟩ ![0, 1]) :
    rows x W (shapeCast ⟨2, ![1, H]⟩ b hsc)
      = addf (Host.dotGeneral d none x W) (broadcastInDim ⟨2, ![R, H]⟩ ![0, 1] h2 (broadcastInDim ⟨2, ![1, H]⟩ ![1] h1 b)) := by
  funext i
  obtain ⟨n, h, rfl⟩ : ∃ (n : Fin R) (h : Fin H), i = ix2 n h := ⟨i 0, i 1, eq_ix2 i⟩
  rw [rows_apply, shapeCast_a_1a_apply, dense_host_apply' d hd x W b h1 h2 n h]
  rfl

/-- The same followed by the positive part, against the host's zero constant broadcast from a scalar. -/
theorem rowsPos_eq_max_dot_add (d : DotDims ⟨2, ![R, K]⟩ ⟨2, ![K, H]⟩ ⟨2, ![R, H]⟩) (hd : d = DotDims.plain R K H)
    (x : FVec Ideal ⟨2, ![R, K]⟩ .f32) (W : FVec Ideal ⟨2, ![K, H]⟩ .f32) (b : FVec Ideal ⟨1, ![H]⟩ .f32)
    (hsc : (⟨1, ![H]⟩ : Shape).ShapeCasts ⟨2, ![1, H]⟩)
    (h1 : (⟨1, ![H]⟩ : Shape).BroadcastsInDim ⟨2, ![1, H]⟩ ![1]) (h2 : (⟨2, ![1, H]⟩ : Shape).BroadcastsInDim ⟨2, ![R, H]⟩ ![0, 1])
    (d0 : Fin 0 → Fin 2) (hb : (⟨0, ![]⟩ : Shape).BroadcastsInDim ⟨2, ![R, H]⟩ d0) :
    rowsPos x W (shapeCast ⟨2, ![1, H]⟩ b hsc)
      = maximumf (addf (Host.dotGeneral d none x W) (broadcastInDim ⟨2, ![R, H]⟩ ![0, 1] h2 (broadcastInDim ⟨2, ![1, H]⟩ ![1] h1 b)))
          (broadcastInDim ⟨2, ![R, H]⟩ d0 hb (constant (F := Ideal) ⟨0, ![]⟩ .f32 0x00000000#32)) := by
  funext i
  show max (rows x W (shapeCast ⟨2, ![1, H]⟩ b hsc) i) (Ideal.ofBits .f32 0x00000000#32) = _
  rw [rows_eq_dot_add d hd x W b hsc h1 h2]
  rfl

end DenseRows

end
-- ==== Proof.Layer0.lean ====
/-
  The dense layer's region number 0: its output array after the run, as one function of the arrays it finds.

  The region walks the 50000 rows in ten blocks of 5000.  At a block it multiplies the block's rows by the whole
  weight matrix, adds the one bias row, and writes the 5000 result rows back at the block's place.  So block
  t of the output is rows 5000·t … 5000·t + 4999 of `DenseRows.rows x W b`, the ten blocks tile the output, and
  the output array ends holding `DenseRows.rows x W b` of the three arrays the region was entered with.
-/
import proofs.«134820_j16853451670120_1_alg».proof.Proof.Gen.KernelIdeal.Frame
import proofs.«134820_j16853451670120_1_alg».proof.Proof.DenseRows
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The three arrays the region is entered with: the rows, the weights, the one bias row. -/
abbrev xArr (c : Dev nD) : FVec Ideal S50000x128 .f32 := V c main_arg0
abbrev wArr (c : Dev nD) : FVec Ideal S128x256 .f32 := V c main_arg2
abbrev bArr (c : Dev nD) : FVec Ideal S1x256 .f32 := V c main_v31

/-- The block indices over the grid: the row windows move with the point, the weights and the bias stay. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's stored value at row p, column q of the block. -/
theorem pay_apply (x0 : FVec Ideal S5000x128 .f32) (x1 : FVec Ideal S128x256 .f32) (x2 : FVec Ideal S1x256 .f32)
    (p : Fin 5000) (q : Fin 256) :
    k0_pay1 (F := Ideal) x0 x1 x2 (ix2 p q) = DenseRows.entry x0 x1 x2 p q := by
  unfold k0_pay1
  simp only [shapeCast_self]
  exact DenseRows.block_apply dot_S5000x128_S128x256_S5000x256_1_0_0_1_n_n rfl x0 x1 x2 _ _ _ p q

/-- Row p of the row window's block at point t is row 5000·t + p of the array. -/
theorem read_x (c : Dev nD) (t : Fin cfg0.N) (p : Fin 5000) (k : Fin 128) (i : S50000x128.Idx)
    (h0 : (i 0).val = t.val * 5000 + p.val) (h1 : (i 1).val = k.val) :
    (iblk0 V c 0 t : FVec Ideal S5000x128 .f32) (ix2 p k) = xArr V c i := by
  obtain ⟨e0, e1, -⟩ := idx t
  show V c main_arg0 (((cfg0.win 0).blk t).view.emb (ix2 p k)) = V c main_arg0 i
  refine congrArg (V c main_arg0) (funext fun a => Fin.ext ?_)
  match a with
  | ⟨0, _⟩ => show win0_0.index t (0 : Fin 2) * 5000 + 1 * p.val = (i 0).val; rw [e0, h0]; omega
  | ⟨1, _⟩ => show win0_0.index t (1 : Fin 2) * 128 + 1 * k.val = (i 1).val; rw [e1, h1]; omega

/-- The weight window's block is the whole weight array. -/
theorem read_w (c : Dev nD) (t : Fin cfg0.N) (k : Fin 128) (q : Fin 256) (i : S128x256.Idx)
    (h0 : (i 0).val = k.val) (h1 : (i 1).val = q.val) :
    (iblk0 V c 1 t : FVec Ideal S128x256 .f32) (ix2 k q) = wArr V c i := by
  obtain ⟨-, -, e0, e1, -⟩ := idx t
  show V c main_arg2 (((cfg0.win 1).blk t).view.emb (ix2 k q)) = V c main_arg2 i
  refine congrArg (V c main_arg2) (funext fun a => Fin.ext ?_)
  match a with
  | ⟨0, _⟩ => show win0_1.index t (0 : Fin 2) * 128 + 1 * k.val = (i 0).val; rw [e0, h0]; omega
  | ⟨1, _⟩ => show win0_1.index t (1 : Fin 2) * 256 + 1 * q.val = (i 1).val; rw [e1, h1]; omega

/-- The bias window's block is the whole bias row. -/
theorem read_b (c : Dev nD) (t : Fin cfg0.N) (q : Fin 256) (i : S1x256.Idx)
    (h0 : (i 0).val = 0) (h1 : (i 1).val = q.val) :
    (iblk0 V c 2 t : FVec Ideal S1x256 .f32) (ix2 (0 : Fin 1) q) = bArr V c i := by
  obtain ⟨-, -, -, -, e0, e1, -⟩ := idx t
  show V c main_v31 (((cfg0.win 2).blk t).view.emb (ix2 (0 : Fin 1) q)) = V c main_v31 i
  refine congrArg (V c main_v31) (funext fun a => Fin.ext ?_)
  match a with
  | ⟨0, _⟩ => show win0_2.index t (0 : Fin 2) * 1 + 1 * 0 = (i 0).val; rw [e0, h0]
  | ⟨1, _⟩ => show win0_2.index t (1 : Fin 2) * 256 + 1 * q.val = (i 1).val; rw [e1, h1]; omega

/-- What point t writes back is block t of the whole-array layer. -/
theorem flushed (c : Dev nD) (t : Fin cfg0.N) :
    (dat0 V c).flushed 3 t
      = ((cfg0.win 3).blk t).view.read (Elt Ideal) (DenseRows.rows (xArr V c) (wArr V c) (bArr V c)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x256) hz, View.ld_unit_zero (S := S1x256) hz]
  obtain ⟨-, -, -, -, -, -, e0, e1⟩ := idx t
  funext j
  obtain ⟨p, q, rfl⟩ : ∃ (p : Fin 5000) (q : Fin 256), j = ix2 p q := ⟨j 0, j 1, eq_ix2 j⟩
  show k0_pay1 (iblk0 V c 0 t) (iblk0 V c 1 t) (iblk0 V c 2 t) (ix2 p q)
    = DenseRows.rows (xArr V c) (wArr V c) (bArr V c) (((cfg0.win 3).blk t).view.emb (ix2 p q))
  refine (pay_apply (iblk0 V c 0 t) (iblk0 V c 1 t) (iblk0 V c 2 t) p q).trans ?_
  have hE0 : ((((cfg0.win 3).blk t).view.emb (ix2 p q)) 0).val = t.val * 5000 + p.val := by
    show win0_3.index t (0 : Fin 2) * 5000 + 1 * p.val = _; rw [e0]; omega
  have hE1 : ((((cfg0.win 3).blk t).view.emb (ix2 p q)) 1).val = q.val := by
    show win0_3.index t (1 : Fin 2) * 256 + 1 * q.val = _; rw [e1]; omega
  refine DenseRows.rows_of_block (xArr V c) (wArr V c) (bArr V c) (iblk0 V c 0 t) (iblk0 V c 1 t) (iblk0 V c 2 t)
    (((cfg0.win 3).blk t).view.emb (ix2 p q)) p q (fun k => ?_) (fun k => ?_) ?_
  · exact read_x V c t p k _ hE0 rfl
  · exact read_w V c t k q _ rfl hE1
  · exact read_b V c t q _ rfl hE1

/-- An index of the output is in point t's block iff its row is among the block's 5000 rows. -/
theorem mem_blk (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v32).slice (win0_3.rect t)).set ↔ _
  rw [View.set_slice_whole, Rect.mem_set_unit]
  exact Iff.rfl

/-- The ten blocks tile the output: row r is in the block of point r / 5000. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e0, e1⟩ := idx t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 256 ≤ (i 1).val ∧ (i 1).val < win0_3.index t (1 : Fin 2) * 256 + 256; rw [e1]; omega

/-- The output array after the region: the dense layer of the arrays it was entered with. -/
theorem result (c : Dev nD) :
    (dat0 V c).arrAt 3 cfg0.N = DenseRows.rows (xArr V c) (wArr V c) (bArr V c) :=
  (dat0 V c).arrAt_eq_of_cover 3 (DenseRows.rows (xArr V c) (wArr V c) (bArr V c)) (fun t _ => flushed V c t) cover

end Cert.KernelIdeal.Layer0

end
-- ==== Proof.Layer1.lean ====
/-
  The dense layer's region number 1: its output array after the run, as one function of the arrays it finds.

  The region walks the 50000 rows in ten blocks of 5000.  At a block it multiplies the block's rows by the whole
  weight matrix, adds the one bias row, and writes the 5000 result rows back at the block's place.  So block
  t of the output is rows 5000·t … 5000·t + 4999 of `DenseRows.rows x W b`, the ten blocks tile the output, and
  the output array ends holding `DenseRows.rows x W b` of the three arrays the region was entered with.
-/
import proofs.«134820_j16853451670120_1_alg».proof.Proof.Gen.KernelIdeal.Frame
import proofs.«134820_j16853451670120_1_alg».proof.Proof.DenseRows
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The three arrays the region is entered with: the rows, the weights, the one bias row. -/
abbrev xArr (c : Dev nD) : FVec Ideal S50000x256 .f32 := V c main_v49
abbrev wArr (c : Dev nD) : FVec Ideal S256x64 .f32 := V c main_arg4
abbrev bArr (c : Dev nD) : FVec Ideal S1x64 .f32 := V c main_v51

/-- The block indices over the grid: the row windows move with the point, the weights and the bias stay. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's stored value at row p, column q of the block. -/
theorem pay_apply (x0 : FVec Ideal S5000x256 .f32) (x1 : FVec Ideal S256x64 .f32) (x2 : FVec Ideal S1x64 .f32)
    (p : Fin 5000) (q : Fin 64) :
    k1_pay1 (F := Ideal) x0 x1 x2 (ix2 p q) = DenseRows.entry x0 x1 x2 p q := by
  unfold k1_pay1
  simp only [shapeCast_self]
  exact DenseRows.block_apply dot_S5000x256_S256x64_S5000x64_1_0_0_1_n_n rfl x0 x1 x2 _ _ _ p q

/-- Row p of the row window's block at point t is row 5000·t + p of the array. -/
theorem read_x (c : Dev nD) (t : Fin cfg1.N) (p : Fin 5000) (k : Fin 256) (i : S50000x256.Idx)
    (h0 : (i 0).val = t.val * 5000 + p.val) (h1 : (i 1).val = k.val) :
    (iblk1 V c 0 t : FVec Ideal S5000x256 .f32) (ix2 p k) = xArr V c i := by
  obtain ⟨e0, e1, -⟩ := idx t
  show V c main_v49 (((cfg1.win 0).blk t).view.emb (ix2 p k)) = V c main_v49 i
  refine congrArg (V c main_v49) (funext fun a => Fin.ext ?_)
  match a with
  | ⟨0, _⟩ => show win1_0.index t (0 : Fin 2) * 5000 + 1 * p.val = (i 0).val; rw [e0, h0]; omega
  | ⟨1, _⟩ => show win1_0.index t (1 : Fin 2) * 256 + 1 * k.val = (i 1).val; rw [e1, h1]; omega

/-- The weight window's block is the whole weight array. -/
theorem read_w (c : Dev nD) (t : Fin cfg1.N) (k : Fin 256) (q : Fin 64) (i : S256x64.Idx)
    (h0 : (i 0).val = k.val) (h1 : (i 1).val = q.val) :
    (iblk1 V c 1 t : FVec Ideal S256x64 .f32) (ix2 k q) = wArr V c i := by
  obtain ⟨-, -, e0, e1, -⟩ := idx t
  show V c main_arg4 (((cfg1.win 1).blk t).view.emb (ix2 k q)) = V c main_arg4 i
  refine congrArg (V c main_arg4) (funext fun a => Fin.ext ?_)
  match a with
  | ⟨0, _⟩ => show win1_1.index t (0 : Fin 2) * 256 + 1 * k.val = (i 0).val; rw [e0, h0]; omega
  | ⟨1, _⟩ => show win1_1.index t (1 : Fin 2) * 64 + 1 * q.val = (i 1).val; rw [e1, h1]; omega

/-- The bias window's block is the whole bias row. -/
theorem read_b (c : Dev nD) (t : Fin cfg1.N) (q : Fin 64) (i : S1x64.Idx)
    (h0 : (i 0).val = 0) (h1 : (i 1).val = q.val) :
    (iblk1 V c 2 t : FVec Ideal S1x64 .f32) (ix2 (0 : Fin 1) q) = bArr V c i := by
  obtain ⟨-, -, -, -, e0, e1, -⟩ := idx t
  show V c main_v51 (((cfg1.win 2).blk t).view.emb (ix2 (0 : Fin 1) q)) = V c main_v51 i
  refine congrArg (V c main_v51) (funext fun a => Fin.ext ?_)
  match a with
  | ⟨0, _⟩ => show win1_2.index t (0 : Fin 2) * 1 + 1 * 0 = (i 0).val; rw [e0, h0]
  | ⟨1, _⟩ => show win1_2.index t (1 : Fin 2) * 64 + 1 * q.val = (i 1).val; rw [e1, h1]; omega

/-- What point t writes back is block t of the whole-array layer. -/
theorem flushed (c : Dev nD) (t : Fin cfg1.N) :
    (dat1 V c).flushed 3 t
      = ((cfg1.win 3).blk t).view.read (Elt Ideal) (DenseRows.rows (xArr V c) (wArr V c) (bArr V c)) := by
  show (cfg1.win 3).cut (grid1.coords t) ((dat1 V c).after 3 t) = _
  rw [after1_3]
  unfold out1_3
  rw [View.canon_unit_zero hz]
  simp only [View.ld_unit_zero (S := S5000x256) hz, View.ld_unit_zero (S := S256x64) hz, View.ld_unit_zero (S := S1x64) hz]
  obtain ⟨-, -, -, -, -, -, e0, e1⟩ := idx t
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (ix2 p q)
    = DenseRows.rows (xArr V c) (wArr V c) (bArr V c) (((cfg1.win 3).blk t).view.emb (ix2 p q))
  refine (pay_apply (iblk1 V c 0 t) (iblk1 V c 1 t) (iblk1 V c 2 t) p q).trans ?_
  have hE0 : ((((cfg1.win 3).blk t).view.emb (ix2 p q)) 0).val = t.val * 5000 + p.val := by
    show win1_3.index t (0 : Fin 2) * 5000 + 1 * p.val = _; rw [e0]; omega
  have hE1 : ((((cfg1.win 3).blk t).view.emb (ix2 p q)) 1).val = q.val := by
    show win1_3.index t (1 : Fin 2) * 64 + 1 * q.val = _; rw [e1]; omega
  refine DenseRows.rows_of_block (xArr V c) (wArr V c) (bArr V c) (iblk1 V c 0 t) (iblk1 V c 1 t) (iblk1 V c 2 t)
    (((cfg1.win 3).blk t).view.emb (ix2 p q)) p q (fun k => ?_) (fun k => ?_) ?_
  · exact read_x V c t p k _ hE0 rfl
  · exact read_w V c t k q _ rfl hE1
  · exact read_b V c t q _ rfl hE1

/-- An index of the output is in point t's block iff its row is among the block's 5000 rows. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v52).slice (win1_3.rect t)).set ↔ _
  rw [View.set_slice_whole, Rect.mem_set_unit]
  exact Iff.rfl

/-- The ten blocks tile the output: row r is in the block of point r / 5000. -/
theorem cover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, e0, e1⟩ := idx t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [e0, ht]; omega
  | ⟨1, _⟩ => show win1_3.index t (1 : Fin 2) * 64 ≤ (i 1).val ∧ (i 1).val < win1_3.index t (1 : Fin 2) * 64 + 64; rw [e1]; omega

/-- The output array after the region: the dense layer of the arrays it was entered with. -/
theorem result (c : Dev nD) :
    (dat1 V c).arrAt 3 cfg1.N = DenseRows.rows (xArr V c) (wArr V c) (bArr V c) :=
  (dat1 V c).arrAt_eq_of_cover 3 (DenseRows.rows (xArr V c) (wArr V c) (bArr V c)) (fun t _ => flushed V c t) cover

end Cert.KernelIdeal.Layer1

end
-- ==== Proof.Layer2.lean ====
/-
  The dense layer's region number 2: its output array after the run, as one function of the arrays it finds.

  The region walks the 50000 rows in ten blocks of 5000.  At a block it multiplies the block's rows by the whole
  weight matrix, adds the one bias row and takes the positive part, and writes the 5000 result rows back at the block's place.  So block
  t of the output is rows 5000·t … 5000·t + 4999 of `DenseRows.rowsPos x W b`, the ten blocks tile the output, and
  the output array ends holding `DenseRows.rowsPos x W b` of the three arrays the region was entered with.
-/
import proofs.«134820_j16853451670120_1_alg».proof.Proof.Gen.KernelIdeal.Frame
import proofs.«134820_j16853451670120_1_alg».proof.Proof.DenseRows
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The three arrays the region is entered with: the rows, the weights, the one bias row. -/
abbrev xArr (c : Dev nD) : FVec Ideal S50000x64 .f32 := V c main_v68
abbrev wArr (c : Dev nD) : FVec Ideal S64x256 .f32 := V c main_arg6
abbrev bArr (c : Dev nD) : FVec Ideal S1x256 .f32 := V c main_v69

/-- The block indices over the grid: the row windows move with the point, the weights and the bias stay. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's stored value at row p, column q of the block. -/
theorem pay_apply (x0 : FVec Ideal S5000x64 .f32) (x1 : FVec Ideal S64x256 .f32) (x2 : FVec Ideal S1x256 .f32)
    (p : Fin 5000) (q : Fin 256) :
    k2_pay1 (F := Ideal) x0 x1 x2 (ix2 p q) = DenseRows.entryPos x0 x1 x2 p q := by
  unfold k2_pay1
  simp only [shapeCast_self]
  exact DenseRows.blockPos_apply dot_S5000x64_S64x256_S5000x256_1_0_0_1_n_n rfl x0 x1 x2 _ _ _ p q

/-- Row p of the row window's block at point t is row 5000·t + p of the array. -/
theorem read_x (c : Dev nD) (t : Fin cfg2.N) (p : Fin 5000) (k : Fin 64) (i : S50000x64.Idx)
    (h0 : (i 0).val = t.val * 5000 + p.val) (h1 : (i 1).val = k.val) :
    (iblk2 V c 0 t : FVec Ideal S5000x64 .f32) (ix2 p k) = xArr V c i := by
  obtain ⟨e0, e1, -⟩ := idx t
  show V c main_v68 (((cfg2.win 0).blk t).view.emb (ix2 p k)) = V c main_v68 i
  refine congrArg (V c main_v68) (funext fun a => Fin.ext ?_)
  match a with
  | ⟨0, _⟩ => show win2_0.index t (0 : Fin 2) * 5000 + 1 * p.val = (i 0).val; rw [e0, h0]; omega
  | ⟨1, _⟩ => show win2_0.index t (1 : Fin 2) * 64 + 1 * k.val = (i 1).val; rw [e1, h1]; omega

/-- The weight window's block is the whole weight array. -/
theorem read_w (c : Dev nD) (t : Fin cfg2.N) (k : Fin 64) (q : Fin 256) (i : S64x256.Idx)
    (h0 : (i 0).val = k.val) (h1 : (i 1).val = q.val) :
    (iblk2 V c 1 t : FVec Ideal S64x256 .f32) (ix2 k q) = wArr V c i := by
  obtain ⟨-, -, e0, e1, -⟩ := idx t
  show V c main_arg6 (((cfg2.win 1).blk t).view.emb (ix2 k q)) = V c main_arg6 i
  refine congrArg (V c main_arg6) (funext fun a => Fin.ext ?_)
  match a with
  | ⟨0, _⟩ => show win2_1.index t (0 : Fin 2) * 64 + 1 * k.val = (i 0).val; rw [e0, h0]; omega
  | ⟨1, _⟩ => show win2_1.index t (1 : Fin 2) * 256 + 1 * q.val = (i 1).val; rw [e1, h1]; omega

/-- The bias window's block is the whole bias row. -/
theorem read_b (c : Dev nD) (t : Fin cfg2.N) (q : Fin 256) (i : S1x256.Idx)
    (h0 : (i 0).val = 0) (h1 : (i 1).val = q.val) :
    (iblk2 V c 2 t : FVec Ideal S1x256 .f32) (ix2 (0 : Fin 1) q) = bArr V c i := by
  obtain ⟨-, -, -, -, e0, e1, -⟩ := idx t
  show V c main_v69 (((cfg2.win 2).blk t).view.emb (ix2 (0 : Fin 1) q)) = V c main_v69 i
  refine congrArg (V c main_v69) (funext fun a => Fin.ext ?_)
  match a with
  | ⟨0, _⟩ => show win2_2.index t (0 : Fin 2) * 1 + 1 * 0 = (i 0).val; rw [e0, h0]
  | ⟨1, _⟩ => show win2_2.index t (1 : Fin 2) * 256 + 1 * q.val = (i 1).val; rw [e1, h1]; omega

/-- What point t writes back is block t of the whole-array layer. -/
theorem flushed (c : Dev nD) (t : Fin cfg2.N) :
    (dat2 V c).flushed 3 t
      = ((cfg2.win 3).blk t).view.read (Elt Ideal) (DenseRows.rowsPos (xArr V c) (wArr V c) (bArr V c)) := by
  show (cfg2.win 3).cut (grid2.coords t) ((dat2 V c).after 3 t) = _
  rw [after2_3]
  unfold out2_3
  rw [View.canon_unit_zero hz]
  simp only [View.ld_unit_zero (S := S5000x64) hz, View.ld_unit_zero (S := S64x256) hz, View.ld_unit_zero (S := S1x256) hz]
  obtain ⟨-, -, -, -, -, -, e0, e1⟩ := idx t
  funext j
  obtain ⟨p, q, rfl⟩ : ∃ (p : Fin 5000) (q : Fin 256), j = ix2 p q := ⟨j 0, j 1, eq_ix2 j⟩
  show k2_pay1 (iblk2 V c 0 t) (iblk2 V c 1 t) (iblk2 V c 2 t) (ix2 p q)
    = DenseRows.rowsPos (xArr V c) (wArr V c) (bArr V c) (((cfg2.win 3).blk t).view.emb (ix2 p q))
  refine (pay_apply (iblk2 V c 0 t) (iblk2 V c 1 t) (iblk2 V c 2 t) p q).trans ?_
  have hE0 : ((((cfg2.win 3).blk t).view.emb (ix2 p q)) 0).val = t.val * 5000 + p.val := by
    show win2_3.index t (0 : Fin 2) * 5000 + 1 * p.val = _; rw [e0]; omega
  have hE1 : ((((cfg2.win 3).blk t).view.emb (ix2 p q)) 1).val = q.val := by
    show win2_3.index t (1 : Fin 2) * 256 + 1 * q.val = _; rw [e1]; omega
  refine DenseRows.rowsPos_of_block (xArr V c) (wArr V c) (bArr V c) (iblk2 V c 0 t) (iblk2 V c 1 t) (iblk2 V c 2 t)
    (((cfg2.win 3).blk t).view.emb (ix2 p q)) p q (fun k => ?_) (fun k => ?_) ?_
  · exact read_x V c t p k _ hE0 rfl
  · exact read_w V c t k q _ rfl hE1
  · exact read_b V c t q _ rfl hE1

/-- An index of the output is in point t's block iff its row is among the block's 5000 rows. -/
theorem mem_blk (t : Fin cfg2.N) (i : S50000x256.Idx) :
    i ∈ ((cfg2.win 3).blk t).view.set ↔ ∀ a : Fin 2, win2_3.index t a * S5000x256.size a ≤ (i a).val ∧ (i a).val < win2_3.index t a * S5000x256.size a + S5000x256.size a := by
  show i ∈ ((View.whole main_v70).slice (win2_3.rect t)).set ↔ _
  rw [View.set_slice_whole, Rect.mem_set_unit]
  exact Iff.rfl

/-- The ten blocks tile the output: row r is in the block of point r / 5000. -/
theorem cover (i : S50000x256.Idx) :
    ∃ t : Fin cfg2.N, (cfg2.win 3).flush t = true ∧ i ∈ ((cfg2.win 3).blk t).view.set := by
  have hi0 : (i 0).val < 50000 := (i 0).isLt
  have hi1 : (i 1).val < 256 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, e0, e1⟩ := idx t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; rw [e0, ht]; omega
  | ⟨1, _⟩ => show win2_3.index t (1 : Fin 2) * 256 ≤ (i 1).val ∧ (i 1).val < win2_3.index t (1 : Fin 2) * 256 + 256; rw [e1]; omega

/-- The output array after the region: the dense layer of the arrays it was entered with. -/
theorem result (c : Dev nD) :
    (dat2 V c).arrAt 3 cfg2.N = DenseRows.rowsPos (xArr V c) (wArr V c) (bArr V c) :=
  (dat2 V c).arrAt_eq_of_cover 3 (DenseRows.rowsPos (xArr V c) (wArr V c) (bArr V c)) (fun t _ => flushed V c t) cover

end Cert.KernelIdeal.Layer2

end
-- ==== Proof.Layer3.lean ====
/-
  The dense layer's region number 3: its output array after the run, as one function of the arrays it finds.

  The region walks the 50000 rows in ten blocks of 5000.  At a block it multiplies the block's rows by the whole
  weight matrix, adds the one bias row, and writes the 5000 result rows back at the block's place.  So block
  t of the output is rows 5000·t … 5000·t + 4999 of `DenseRows.rows x W b`, the ten blocks tile the output, and
  the output array ends holding `DenseRows.rows x W b` of the three arrays the region was entered with.
-/
import proofs.«134820_j16853451670120_1_alg».proof.Proof.Gen.KernelIdeal.Frame
import proofs.«134820_j16853451670120_1_alg».proof.Proof.DenseRows
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Layer3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The three arrays the region is entered with: the rows, the weights, the one bias row. -/
abbrev xArr (c : Dev nD) : FVec Ideal S50000x256 .f32 := V c main_v70
abbrev wArr (c : Dev nD) : FVec Ideal S256x128 .f32 := V c main_arg8
abbrev bArr (c : Dev nD) : FVec Ideal S1x128 .f32 := V c main_v71

/-- The block indices over the grid: the row windows move with the point, the weights and the bias stay. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The body's stored value at row p, column q of the block. -/
theorem pay_apply (x0 : FVec Ideal S5000x256 .f32) (x1 : FVec Ideal S256x128 .f32) (x2 : FVec Ideal S1x128 .f32)
    (p : Fin 5000) (q : Fin 128) :
    k3_pay1 (F := Ideal) x0 x1 x2 (ix2 p q) = DenseRows.entry x0 x1 x2 p q := by
  unfold k3_pay1
  simp only [shapeCast_self]
  exact DenseRows.block_apply dot_S5000x256_S256x128_S5000x128_1_0_0_1_n_n rfl x0 x1 x2 _ _ _ p q

/-- Row p of the row window's block at point t is row 5000·t + p of the array. -/
theorem read_x (c : Dev nD) (t : Fin cfg3.N) (p : Fin 5000) (k : Fin 256) (i : S50000x256.Idx)
    (h0 : (i 0).val = t.val * 5000 + p.val) (h1 : (i 1).val = k.val) :
    (iblk3 V c 0 t : FVec Ideal S5000x256 .f32) (ix2 p k) = xArr V c i := by
  obtain ⟨e0, e1, -⟩ := idx t
  show V c main_v70 (((cfg3.win 0).blk t).view.emb (ix2 p k)) = V c main_v70 i
  refine congrArg (V c main_v70) (funext fun a => Fin.ext ?_)
  match a with
  | ⟨0, _⟩ => show win3_0.index t (0 : Fin 2) * 5000 + 1 * p.val = (i 0).val; rw [e0, h0]; omega
  | ⟨1, _⟩ => show win3_0.index t (1 : Fin 2) * 256 + 1 * k.val = (i 1).val; rw [e1, h1]; omega

/-- The weight window's block is the whole weight array. -/
theorem read_w (c : Dev nD) (t : Fin cfg3.N) (k : Fin 256) (q : Fin 128) (i : S256x128.Idx)
    (h0 : (i 0).val = k.val) (h1 : (i 1).val = q.val) :
    (iblk3 V c 1 t : FVec Ideal S256x128 .f32) (ix2 k q) = wArr V c i := by
  obtain ⟨-, -, e0, e1, -⟩ := idx t
  show V c main_arg8 (((cfg3.win 1).blk t).view.emb (ix2 k q)) = V c main_arg8 i
  refine congrArg (V c main_arg8) (funext fun a => Fin.ext ?_)
  match a with
  | ⟨0, _⟩ => show win3_1.index t (0 : Fin 2) * 256 + 1 * k.val = (i 0).val; rw [e0, h0]; omega
  | ⟨1, _⟩ => show win3_1.index t (1 : Fin 2) * 128 + 1 * q.val = (i 1).val; rw [e1, h1]; omega

/-- The bias window's block is the whole bias row. -/
theorem read_b (c : Dev nD) (t : Fin cfg3.N) (q : Fin 128) (i : S1x128.Idx)
    (h0 : (i 0).val = 0) (h1 : (i 1).val = q.val) :
    (iblk3 V c 2 t : FVec Ideal S1x128 .f32) (ix2 (0 : Fin 1) q) = bArr V c i := by
  obtain ⟨-, -, -, -, e0, e1, -⟩ := idx t
  show V c main_v71 (((cfg3.win 2).blk t).view.emb (ix2 (0 : Fin 1) q)) = V c main_v71 i
  refine congrArg (V c main_v71) (funext fun a => Fin.ext ?_)
  match a with
  | ⟨0, _⟩ => show win3_2.index t (0 : Fin 2) * 1 + 1 * 0 = (i 0).val; rw [e0, h0]
  | ⟨1, _⟩ => show win3_2.index t (1 : Fin 2) * 128 + 1 * q.val = (i 1).val; rw [e1, h1]; omega

/-- What point t writes back is block t of the whole-array layer. -/
theorem flushed (c : Dev nD) (t : Fin cfg3.N) :
    (dat3 V c).flushed 3 t
      = ((cfg3.win 3).blk t).view.read (Elt Ideal) (DenseRows.rows (xArr V c) (wArr V c) (bArr V c)) := by
  show (cfg3.win 3).cut (grid3.coords t) ((dat3 V c).after 3 t) = _
  rw [after3_3]
  unfold out3_3
  rw [View.canon_unit_zero hz]
  simp only [View.ld_unit_zero (S := S5000x256) hz, View.ld_unit_zero (S := S256x128) hz, View.ld_unit_zero (S := S1x128) hz]
  obtain ⟨-, -, -, -, -, -, e0, e1⟩ := idx t
  funext j
  obtain ⟨p, q, rfl⟩ : ∃ (p : Fin 5000) (q : Fin 128), j = ix2 p q := ⟨j 0, j 1, eq_ix2 j⟩
  show k3_pay1 (iblk3 V c 0 t) (iblk3 V c 1 t) (iblk3 V c 2 t) (ix2 p q)
    = DenseRows.rows (xArr V c) (wArr V c) (bArr V c) (((cfg3.win 3).blk t).view.emb (ix2 p q))
  refine (pay_apply (iblk3 V c 0 t) (iblk3 V c 1 t) (iblk3 V c 2 t) p q).trans ?_
  have hE0 : ((((cfg3.win 3).blk t).view.emb (ix2 p q)) 0).val = t.val * 5000 + p.val := by
    show win3_3.index t (0 : Fin 2) * 5000 + 1 * p.val = _; rw [e0]; omega
  have hE1 : ((((cfg3.win 3).blk t).view.emb (ix2 p q)) 1).val = q.val := by
    show win3_3.index t (1 : Fin 2) * 128 + 1 * q.val = _; rw [e1]; omega
  refine DenseRows.rows_of_block (xArr V c) (wArr V c) (bArr V c) (iblk3 V c 0 t) (iblk3 V c 1 t) (iblk3 V c 2 t)
    (((cfg3.win 3).blk t).view.emb (ix2 p q)) p q (fun k => ?_) (fun k => ?_) ?_
  · exact read_x V c t p k _ hE0 rfl
  · exact read_w V c t k q _ rfl hE1
  · exact read_b V c t q _ rfl hE1

/-- An index of the output is in point t's block iff its row is among the block's 5000 rows. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v72).slice (win3_3.rect t)).set ↔ _
  rw [View.set_slice_whole, Rect.mem_set_unit]
  exact Iff.rfl

/-- The ten blocks tile the output: row r is in the block of point r / 5000. -/
theorem cover (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, e0, e1⟩ := idx t
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; rw [e0, ht]; omega
  | ⟨1, _⟩ => show win3_3.index t (1 : Fin 2) * 128 ≤ (i 1).val ∧ (i 1).val < win3_3.index t (1 : Fin 2) * 128 + 128; rw [e1]; omega

/-- The output array after the region: the dense layer of the arrays it was entered with. -/
theorem result (c : Dev nD) :
    (dat3 V c).arrAt 3 cfg3.N = DenseRows.rows (xArr V c) (wArr V c) (bArr V c) :=
  (dat3 V c).arrAt_eq_of_cover 3 (DenseRows.rows (xArr V c) (wArr V c) (bArr V c)) (fun t _ => flushed V c t) cover

end Cert.KernelIdeal.Layer3

end
-- ==== Proof.HostStretches.lean ====
/-
  The host stretches of the idealized kernel program, each read once against the reference's stages.

  Between its four dense-layer regions the kernel program runs the same host operations as the reference: it
  builds the source and destination lists with the self loops appended, the degrees, their inverse square
  roots and the edge weights, and passes a layer's dense output through the gather at the sources, the
  product with the edge weights, the scatter-add at the destinations, the bias and (first layer) the positive
  part.  Each stretch is read here at ANY float family and from ANY contents of the buffers at its start: the
  buffers it writes that something later reads are the reference's stages (`val_main_v…`) when the buffers it
  reads are, and the buffers it does not write keep their contents.
-/
import proofs.«134820_j16853451670120_1_alg».proof.Proof.Gen.KernelIdeal.Frame
import proofs.«134820_j16853451670120_1_alg».proof.Proof.RefRead
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo
open Cert.ReferenceIdeal.ReadP (val_main_v3 val_main_v6 val_main_v15 val_main_v30 val_main_v47 val_main_v63 val_main_v94
  val_main_v99 val_main_v103)

/-- After the one-pass reading of a stretch, the operands of a concatenation are still folds of a few operations
    (the pass does not look inside the operand list): this reads them, one operation at a time. -/
macro "results_inside" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The host stretches, at any float family and from any contents

Each stretch is read once, from contents `V` of the buffers at its start: what it leaves in the buffers a later
region or stretch reads, as the reference's stage of the same quantity when the buffers it reads hold the
reference's stages; and the buffers it does not write, unchanged.  No float operation is opened here. -/

section Host

variable {F : FTy → Type} [FloatOps F] (V : Valuation τ sig (Elt F))

/-! ### Before the first region -/

theorem pre_keep_arg0 : after hostOps0_2 (after hostOps0_1 (after hostOps0 V)) (Proc.devRef .tc main_arg0) = V (Proc.devRef .tc main_arg0) := by after_results_simp
theorem pre_keep_arg2 : after hostOps0_2 (after hostOps0_1 (after hostOps0 V)) (Proc.devRef .tc main_arg2) = V (Proc.devRef .tc main_arg2) := by after_results_simp
theorem pre_keep_arg3 : after hostOps0_2 (after hostOps0_1 (after hostOps0 V)) (Proc.devRef .tc main_arg3) = V (Proc.devRef .tc main_arg3) := by after_results_simp
theorem pre_keep_arg4 : after hostOps0_2 (after hostOps0_1 (after hostOps0 V)) (Proc.devRef .tc main_arg4) = V (Proc.devRef .tc main_arg4) := by after_results_simp
theorem pre_keep_arg5 : after hostOps0_2 (after hostOps0_1 (after hostOps0 V)) (Proc.devRef .tc main_arg5) = V (Proc.devRef .tc main_arg5) := by after_results_simp
theorem pre_keep_arg6 : after hostOps0_2 (after hostOps0_1 (after hostOps0 V)) (Proc.devRef .tc main_arg6) = V (Proc.devRef .tc main_arg6) := by after_results_simp
theorem pre_keep_arg7 : after hostOps0_2 (after hostOps0_1 (after hostOps0 V)) (Proc.devRef .tc main_arg7) = V (Proc.devRef .tc main_arg7) := by after_results_simp
theorem pre_keep_arg8 : after hostOps0_2 (after hostOps0_1 (after hostOps0 V)) (Proc.devRef .tc main_arg8) = V (Proc.devRef .tc main_arg8) := by after_results_simp
theorem pre_keep_arg9 : after hostOps0_2 (after hostOps0_1 (after hostOps0 V)) (Proc.devRef .tc main_arg9) = V (Proc.devRef .tc main_arg9) := by after_results_simp

/-- The first graph layer's bias row inside the kernel: the zero vector reshaped to one row. -/
theorem pre_v31 : after hostOps0_2 (after hostOps0_1 (after hostOps0 V)) (Proc.devRef .tc main_v31)
    = shapeCast S1x256 (broadcastInDim S256 ![] bcast_S_S256 (constant (F := F) S_ .f32 0x00000000#32)) shapeCasts_S256_S1x256 := by
  after_results_simp <;> rfl

/-- The source list with the self loops appended is the reference's. -/
theorem pre_v3 (x1 : (⟨S2x800000, .i32⟩ : BufTy).Contents (Elt F)) (h1 : V (Proc.devRef .tc main_arg1) = x1) :
    after hostOps0_2 (after hostOps0_1 (after hostOps0 V)) (Proc.devRef .tc main_v3) = val_main_v3 (F := F) x1 := by
  after_results_simp
  results_inside
  rw [h1]
  rfl
/-- The destination list with the self loops appended is the reference's. -/
theorem pre_v6 (x1 : (⟨S2x800000, .i32⟩ : BufTy).Contents (Elt F)) (h1 : V (Proc.devRef .tc main_arg1) = x1) :
    after hostOps0_2 (after hostOps0_1 (after hostOps0 V)) (Proc.devRef .tc main_v6) = val_main_v6 (F := F) x1 := by
  after_results_simp
  results_inside
  rw [h1]
  rfl
/-- The edge weights — the product of the two endpoints' inverse square-root degrees — are the reference's. -/
theorem pre_v29 (x1 : (⟨S2x800000, .i32⟩ : BufTy).Contents (Elt F)) (h1 : V (Proc.devRef .tc main_arg1) = x1) :
    after hostOps0_2 (after hostOps0_1 (after hostOps0 V)) (Proc.devRef .tc main_v29) = val_main_v30 (F := F) x1 := by
  after_results_simp
  results_inside
  rw [h1]
  simp only [TRef.ofBuf, TRef.toBuf, cast_eq]
  rfl

/-! ### Between the first two regions: gather, weigh, scatter-add, bias, positive part -/

/-- The first graph layer's output, after its positive part, is the reference's, when the region before left the
    bare product and the graph quantities are the reference's. -/
theorem mid1_v49 (x0 : (⟨S50000x128, .f32⟩ : BufTy).Contents (Elt F)) (x1 : (⟨S2x800000, .i32⟩ : BufTy).Contents (Elt F))
    (x2 : (⟨S128x256, .f32⟩ : BufTy).Contents (Elt F)) (x3 : (⟨S256, .f32⟩ : BufTy).Contents (Elt F))
    (h32 : V (Proc.devRef .tc main_v32) = val_main_v15 (F := F) x0 x2) (h3 : V (Proc.devRef .tc main_v3) = val_main_v3 (F := F) x1)
    (h6 : V (Proc.devRef .tc main_v6) = val_main_v6 (F := F) x1) (h29 : V (Proc.devRef .tc main_v29) = val_main_v30 (F := F) x1)
    (ha3 : V (Proc.devRef .tc main_arg3) = x3) :
    after hostOps1_2 (after hostOps1_1 (after hostOps1 V)) (Proc.devRef .tc main_v49) = val_main_v47 (F := F) x0 x1 x2 x3 := by
  after_results_simp
  rw [h32, h3, h6, h29, ha3]
  simp only [TRef.ofBuf, TRef.toBuf, cast_eq]
  rfl
/-- The second graph layer's bias row inside the kernel: again the zero vector reshaped to one row. -/
theorem mid1_v51 : after hostOps1_2 (after hostOps1_1 (after hostOps1 V)) (Proc.devRef .tc main_v51)
    = shapeCast S1x64 (broadcastInDim S64 ![] bcast_S_S64 (constant (F := F) S_ .f32 0x00000000#32)) shapeCasts_S64_S1x64 := by
  after_results_simp <;> rfl
theorem mid1_keep_v3 : after hostOps1_2 (after hostOps1_1 (after hostOps1 V)) (Proc.devRef .tc main_v3) = V (Proc.devRef .tc main_v3) := by after_results_simp
theorem mid1_keep_v6 : after hostOps1_2 (after hostOps1_1 (after hostOps1 V)) (Proc.devRef .tc main_v6) = V (Proc.devRef .tc main_v6) := by after_results_simp
theorem mid1_keep_v29 : after hostOps1_2 (after hostOps1_1 (after hostOps1 V)) (Proc.devRef .tc main_v29) = V (Proc.devRef .tc main_v29) := by after_results_simp
theorem mid1_keep_arg4 : after hostOps1_2 (after hostOps1_1 (after hostOps1 V)) (Proc.devRef .tc main_arg4) = V (Proc.devRef .tc main_arg4) := by after_results_simp
theorem mid1_keep_arg5 : after hostOps1_2 (after hostOps1_1 (after hostOps1 V)) (Proc.devRef .tc main_arg5) = V (Proc.devRef .tc main_arg5) := by after_results_simp
theorem mid1_keep_arg6 : after hostOps1_2 (after hostOps1_1 (after hostOps1 V)) (Proc.devRef .tc main_arg6) = V (Proc.devRef .tc main_arg6) := by after_results_simp
theorem mid1_keep_arg7 : after hostOps1_2 (after hostOps1_1 (after hostOps1 V)) (Proc.devRef .tc main_arg7) = V (Proc.devRef .tc main_arg7) := by after_results_simp
theorem mid1_keep_arg8 : after hostOps1_2 (after hostOps1_1 (after hostOps1 V)) (Proc.devRef .tc main_arg8) = V (Proc.devRef .tc main_arg8) := by after_results_simp
theorem mid1_keep_arg9 : after hostOps1_2 (after hostOps1_1 (after hostOps1 V)) (Proc.devRef .tc main_arg9) = V (Proc.devRef .tc main_arg9) := by after_results_simp

/-! ### Between the second and third regions: the second aggregation, and the first decoder bias reshaped -/

/-- The latent features are the reference's: it builds the graph quantities a second time, from the same edge
    list by the same operations, so its second copies are the first ones. -/
theorem mid2_v68 (x0 : (⟨S50000x128, .f32⟩ : BufTy).Contents (Elt F)) (x1 : (⟨S2x800000, .i32⟩ : BufTy).Contents (Elt F))
    (x2 : (⟨S128x256, .f32⟩ : BufTy).Contents (Elt F)) (x3 : (⟨S256, .f32⟩ : BufTy).Contents (Elt F))
    (x4 : (⟨S256x64, .f32⟩ : BufTy).Contents (Elt F)) (x5 : (⟨S64, .f32⟩ : BufTy).Contents (Elt F))
    (h52 : V (Proc.devRef .tc main_v52) = val_main_v63 (F := F) x0 x1 x2 x3 x4) (h3 : V (Proc.devRef .tc main_v3) = val_main_v3 (F := F) x1)
    (h6 : V (Proc.devRef .tc main_v6) = val_main_v6 (F := F) x1) (h29 : V (Proc.devRef .tc main_v29) = val_main_v30 (F := F) x1)
    (ha5 : V (Proc.devRef .tc main_arg5) = x5) :
    after hostOps2 V (Proc.devRef .tc main_v68) = val_main_v94 (F := F) x0 x1 x2 x3 x4 x5 := by
  after_results_simp
  rw [h52, h3, h6, h29, ha5]
  rfl
/-- The first decoder bias reshaped to one row. -/
theorem mid2_v69 : after hostOps2 V (Proc.devRef .tc main_v69) = shapeCast S1x256 (V (Proc.devRef .tc main_arg7)) shapeCasts_S256_S1x256 := by
  after_results_simp <;> rfl
theorem mid2_keep_arg6 : after hostOps2 V (Proc.devRef .tc main_arg6) = V (Proc.devRef .tc main_arg6) := by after_results_simp
theorem mid2_keep_arg8 : after hostOps2 V (Proc.devRef .tc main_arg8) = V (Proc.devRef .tc main_arg8) := by after_results_simp
theorem mid2_keep_arg9 : after hostOps2 V (Proc.devRef .tc main_arg9) = V (Proc.devRef .tc main_arg9) := by after_results_simp

/-! ### Before the last region: the second decoder bias reshaped -/

theorem mid3_v71 : after hostOps3 V (Proc.devRef .tc main_v71) = shapeCast S1x128 (V (Proc.devRef .tc main_arg9)) shapeCasts_S128_S1x128 := by
  after_results_simp <;> rfl
theorem mid3_keep_v70 : after hostOps3 V (Proc.devRef .tc main_v70) = V (Proc.devRef .tc main_v70) := by after_results_simp
theorem mid3_keep_arg8 : after hostOps3 V (Proc.devRef .tc main_arg8) = V (Proc.devRef .tc main_arg8) := by after_results_simp

end Host

end Cert.KernelIdeal.Stretches

end
-- ==== Proof.KernelStages.lean ====
/-
  The idealized kernel program read stage by stage, against the reference's stages.

  @main is twelve segments: stretches of host operations and four dense-layer regions.  The buffer contents at
  each segment boundary are a fold from the launch memory.  This file walks that fold forwards.  A host
  stretch's results are its operations applied to what the boundary before it holds; a region's output array is
  the dense layer (`DenseRows.rows`) of the three arrays the region is entered with.  Both programs build the same
  graph quantities from the edge list — the source and destination lists with the self loops appended, the
  degrees, their inverse square roots, the edge weights — and pass the features through the same gathers,
  products, scatter-adds, bias additions and positive parts; they differ only in how a dense layer is spelt:
  the kernel's blockwise product with a bias row (a zero row in the two graph layers) against the host's whole
  product, with the bias added by broadcasts in the two decoder layers.  So each kernel buffer that feeds a
  later stage is shown equal to the reference's stage of the same name in the mathematics (`val_main_v…`), and
  the last region's output is the reference's result.
-/
import proofs.«134820_j16853451670120_1_alg».proof.Proof.Gen.KernelIdeal.Frame
import proofs.«134820_j16853451670120_1_alg».proof.Proof.Layer0
import proofs.«134820_j16853451670120_1_alg».proof.Proof.Layer1
import proofs.«134820_j16853451670120_1_alg».proof.Proof.Layer2
import proofs.«134820_j16853451670120_1_alg».proof.Proof.Layer3
import proofs.«134820_j16853451670120_1_alg».proof.Proof.RefRead
import proofs.«134820_j16853451670120_1_alg».proof.Proof.HostStretches
import Idealize.ShloMosaic.Lib.StableHlo.Run

set_option maxRecDepth 16384

noncomputable section

namespace Cert.KernelIdeal.Stages

open Cert.KernelIdeal Cert.KernelIdeal.Gen Cert.KernelIdeal.Stretches
open Idealize.ShloMosaic Idealize.ShloMosaic.TcCoe Idealize.SL.Sem Idealize.ShloMosaic.StableHlo
open Cert.ReferenceIdeal.ReadP (val_main_v3 val_main_v6 val_main_v15 val_main_v30 val_main_v47 val_main_v63 val_main_v94
  val_main_v99 val_main_v103)

variable (m : (ℓ : Loc nD τ sig) → Buf (Elt Ideal) ℓ) (ρ : Dev nD → PrngReg)

/-! ## The arguments as launched -/

abbrev arg0 (c : Dev nD) : (⟨S50000x128, .f32⟩ : BufTy).Contents (Elt Ideal) := m ((c.tc : Thread nD τ).loc main_arg0)
abbrev arg1 (c : Dev nD) : (⟨S2x800000, .i32⟩ : BufTy).Contents (Elt Ideal) := m ((c.tc : Thread nD τ).loc main_arg1)
abbrev arg2 (c : Dev nD) : (⟨S128x256, .f32⟩ : BufTy).Contents (Elt Ideal) := m ((c.tc : Thread nD τ).loc main_arg2)
abbrev arg3 (c : Dev nD) : (⟨S256, .f32⟩ : BufTy).Contents (Elt Ideal) := m ((c.tc : Thread nD τ).loc main_arg3)
abbrev arg4 (c : Dev nD) : (⟨S256x64, .f32⟩ : BufTy).Contents (Elt Ideal) := m ((c.tc : Thread nD τ).loc main_arg4)
abbrev arg5 (c : Dev nD) : (⟨S64, .f32⟩ : BufTy).Contents (Elt Ideal) := m ((c.tc : Thread nD τ).loc main_arg5)
abbrev arg6 (c : Dev nD) : (⟨S64x256, .f32⟩ : BufTy).Contents (Elt Ideal) := m ((c.tc : Thread nD τ).loc main_arg6)
abbrev arg7 (c : Dev nD) : (⟨S256, .f32⟩ : BufTy).Contents (Elt Ideal) := m ((c.tc : Thread nD τ).loc main_arg7)
abbrev arg8 (c : Dev nD) : (⟨S256x128, .f32⟩ : BufTy).Contents (Elt Ideal) := m ((c.tc : Thread nD τ).loc main_arg8)
abbrev arg9 (c : Dev nD) : (⟨S128, .f32⟩ : BufTy).Contents (Elt Ideal) := m ((c.tc : Thread nD τ).loc main_arg9)

/-! ## The walk through the segments, at the ideal values -/

/-! ### Region 0's entry -/
theorem W3_arg0 (c : Dev nD) : W3 m ρ c (Proc.devRef .tc main_arg0) = arg0 m c := pre_keep_arg0 (W0 m ρ c)
theorem W3_arg2 (c : Dev nD) : W3 m ρ c (Proc.devRef .tc main_arg2) = arg2 m c := pre_keep_arg2 (W0 m ρ c)
theorem W3_arg3 (c : Dev nD) : W3 m ρ c (Proc.devRef .tc main_arg3) = arg3 m c := pre_keep_arg3 (W0 m ρ c)
theorem W3_arg4 (c : Dev nD) : W3 m ρ c (Proc.devRef .tc main_arg4) = arg4 m c := pre_keep_arg4 (W0 m ρ c)
theorem W3_arg5 (c : Dev nD) : W3 m ρ c (Proc.devRef .tc main_arg5) = arg5 m c := pre_keep_arg5 (W0 m ρ c)
theorem W3_arg6 (c : Dev nD) : W3 m ρ c (Proc.devRef .tc main_arg6) = arg6 m c := pre_keep_arg6 (W0 m ρ c)
theorem W3_arg7 (c : Dev nD) : W3 m ρ c (Proc.devRef .tc main_arg7) = arg7 m c := pre_keep_arg7 (W0 m ρ c)
theorem W3_arg8 (c : Dev nD) : W3 m ρ c (Proc.devRef .tc main_arg8) = arg8 m c := pre_keep_arg8 (W0 m ρ c)
theorem W3_arg9 (c : Dev nD) : W3 m ρ c (Proc.devRef .tc main_arg9) = arg9 m c := pre_keep_arg9 (W0 m ρ c)

theorem W3_v31 (c : Dev nD) : W3 m ρ c (Proc.devRef .tc main_v31)
    = shapeCast S1x256 (broadcastInDim S256 ![] bcast_S_S256 (constant (F := Ideal) S_ .f32 0x00000000#32)) shapeCasts_S256_S1x256 :=
  pre_v31 (W0 m ρ c)
theorem W3_v3 (c : Dev nD) : W3 m ρ c (Proc.devRef .tc main_v3) = val_main_v3 (F := Ideal) (arg1 m c) := pre_v3 (W0 m ρ c) _ rfl
theorem W3_v6 (c : Dev nD) : W3 m ρ c (Proc.devRef .tc main_v6) = val_main_v6 (F := Ideal) (arg1 m c) := pre_v6 (W0 m ρ c) _ rfl
theorem W3_v29 (c : Dev nD) : W3 m ρ c (Proc.devRef .tc main_v29) = val_main_v30 (F := Ideal) (arg1 m c) := pre_v29 (W0 m ρ c) _ rfl

/-! ### The first region: the first graph layer's dense part -/

/-- With a zero bias row the region's output is the bare product of the features and the first weights. -/
theorem W4_v32 (c : Dev nD) : W4 m ρ c (Proc.devRef .tc main_v32) = val_main_v15 (F := Ideal) (arg0 m c) (arg2 m c) := by
  refine (W4_arr m ρ c 3).trans ((Layer0.result (V3 m ρ) c).trans ?_)
  rw [show Layer0.xArr (V3 m ρ) c = arg0 m c from W3_arg0 m ρ c, show Layer0.wArr (V3 m ρ) c = arg2 m c from W3_arg2 m ρ c,
    show Layer0.bArr (V3 m ρ) c = _ from W3_v31 m ρ c]
  exact DenseRows.rows_zero_eq_dot Cert.ReferenceIdeal.dot_S50000x128_S128x256_S50000x256_1_0_0_1_n_n rfl _ _ _ _ _

/-- The region writes only its output: the graph quantities and the later arguments pass through. -/
theorem W4_v3 (c : Dev nD) : W4 m ρ c (Proc.devRef .tc main_v3) = val_main_v3 (F := Ideal) (arg1 m c) :=
  (W4_of_ne m ρ c main_v3 (by decide)).trans (W3_v3 m ρ c)
theorem W4_v6 (c : Dev nD) : W4 m ρ c (Proc.devRef .tc main_v6) = val_main_v6 (F := Ideal) (arg1 m c) :=
  (W4_of_ne m ρ c main_v6 (by decide)).trans (W3_v6 m ρ c)
theorem W4_v29 (c : Dev nD) : W4 m ρ c (Proc.devRef .tc main_v29) = val_main_v30 (F := Ideal) (arg1 m c) :=
  (W4_of_ne m ρ c main_v29 (by decide)).trans (W3_v29 m ρ c)
theorem W4_arg3 (c : Dev nD) : W4 m ρ c (Proc.devRef .tc main_arg3) = arg3 m c :=
  (W4_of_ne m ρ c main_arg3 (by decide)).trans (W3_arg3 m ρ c)
theorem W4_arg4 (c : Dev nD) : W4 m ρ c (Proc.devRef .tc main_arg4) = arg4 m c :=
  (W4_of_ne m ρ c main_arg4 (by decide)).trans (W3_arg4 m ρ c)
theorem W4_arg5 (c : Dev nD) : W4 m ρ c (Proc.devRef .tc main_arg5) = arg5 m c :=
  (W4_of_ne m ρ c main_arg5 (by decide)).trans (W3_arg5 m ρ c)
theorem W4_arg6 (c : Dev nD) : W4 m ρ c (Proc.devRef .tc main_arg6) = arg6 m c :=
  (W4_of_ne m ρ c main_arg6 (by decide)).trans (W3_arg6 m ρ c)
theorem W4_arg7 (c : Dev nD) : W4 m ρ c (Proc.devRef .tc main_arg7) = arg7 m c :=
  (W4_of_ne m ρ c main_arg7 (by decide)).trans (W3_arg7 m ρ c)
theorem W4_arg8 (c : Dev nD) : W4 m ρ c (Proc.devRef .tc main_arg8) = arg8 m c :=
  (W4_of_ne m ρ c main_arg8 (by decide)).trans (W3_arg8 m ρ c)
theorem W4_arg9 (c : Dev nD) : W4 m ρ c (Proc.devRef .tc main_arg9) = arg9 m c :=
  (W4_of_ne m ρ c main_arg9 (by decide)).trans (W3_arg9 m ρ c)

/-! ### Region 1's entry -/

theorem W7_v49 (c : Dev nD) : W7 m ρ c (Proc.devRef .tc main_v49)
    = val_main_v47 (F := Ideal) (arg0 m c) (arg1 m c) (arg2 m c) (arg3 m c) :=
  mid1_v49 (W4 m ρ c) _ _ _ _ (W4_v32 m ρ c) (W4_v3 m ρ c) (W4_v6 m ρ c) (W4_v29 m ρ c) (W4_arg3 m ρ c)
theorem W7_v51 (c : Dev nD) : W7 m ρ c (Proc.devRef .tc main_v51)
    = shapeCast S1x64 (broadcastInDim S64 ![] bcast_S_S64 (constant (F := Ideal) S_ .f32 0x00000000#32)) shapeCasts_S64_S1x64 :=
  mid1_v51 (W4 m ρ c)
theorem W7_v3 (c : Dev nD) : W7 m ρ c (Proc.devRef .tc main_v3) = val_main_v3 (F := Ideal) (arg1 m c) :=
  (mid1_keep_v3 (W4 m ρ c)).trans (W4_v3 m ρ c)
theorem W7_v6 (c : Dev nD) : W7 m ρ c (Proc.devRef .tc main_v6) = val_main_v6 (F := Ideal) (arg1 m c) :=
  (mid1_keep_v6 (W4 m ρ c)).trans (W4_v6 m ρ c)
theorem W7_v29 (c : Dev nD) : W7 m ρ c (Proc.devRef .tc main_v29) = val_main_v30 (F := Ideal) (arg1 m c) :=
  (mid1_keep_v29 (W4 m ρ c)).trans (W4_v29 m ρ c)
theorem W7_arg4 (c : Dev nD) : W7 m ρ c (Proc.devRef .tc main_arg4) = arg4 m c :=
  (mid1_keep_arg4 (W4 m ρ c)).trans (W4_arg4 m ρ c)
theorem W7_arg5 (c : Dev nD) : W7 m ρ c (Proc.devRef .tc main_arg5) = arg5 m c :=
  (mid1_keep_arg5 (W4 m ρ c)).trans (W4_arg5 m ρ c)
theorem W7_arg6 (c : Dev nD) : W7 m ρ c (Proc.devRef .tc main_arg6) = arg6 m c :=
  (mid1_keep_arg6 (W4 m ρ c)).trans (W4_arg6 m ρ c)
theorem W7_arg7 (c : Dev nD) : W7 m ρ c (Proc.devRef .tc main_arg7) = arg7 m c :=
  (mid1_keep_arg7 (W4 m ρ c)).trans (W4_arg7 m ρ c)
theorem W7_arg8 (c : Dev nD) : W7 m ρ c (Proc.devRef .tc main_arg8) = arg8 m c :=
  (mid1_keep_arg8 (W4 m ρ c)).trans (W4_arg8 m ρ c)
theorem W7_arg9 (c : Dev nD) : W7 m ρ c (Proc.devRef .tc main_arg9) = arg9 m c :=
  (mid1_keep_arg9 (W4 m ρ c)).trans (W4_arg9 m ρ c)

/-! ### The second region: the second graph layer's dense part -/

theorem W8_v52 (c : Dev nD) : W8 m ρ c (Proc.devRef .tc main_v52)
    = val_main_v63 (F := Ideal) (arg0 m c) (arg1 m c) (arg2 m c) (arg3 m c) (arg4 m c) := by
  refine (W8_arr m ρ c 3).trans ((Layer1.result (V7 m ρ) c).trans ?_)
  rw [show Layer1.xArr (V7 m ρ) c = _ from W7_v49 m ρ c, show Layer1.wArr (V7 m ρ) c = arg4 m c from W7_arg4 m ρ c,
    show Layer1.bArr (V7 m ρ) c = _ from W7_v51 m ρ c]
  exact DenseRows.rows_zero_eq_dot Cert.ReferenceIdeal.dot_S50000x256_S256x64_S50000x64_1_0_0_1_n_n rfl _ _ _ _ _

theorem W8_v3 (c : Dev nD) : W8 m ρ c (Proc.devRef .tc main_v3) = val_main_v3 (F := Ideal) (arg1 m c) :=
  (W8_of_ne m ρ c main_v3 (by decide)).trans (W7_v3 m ρ c)
theorem W8_v6 (c : Dev nD) : W8 m ρ c (Proc.devRef .tc main_v6) = val_main_v6 (F := Ideal) (arg1 m c) :=
  (W8_of_ne m ρ c main_v6 (by decide)).trans (W7_v6 m ρ c)
theorem W8_v29 (c : Dev nD) : W8 m ρ c (Proc.devRef .tc main_v29) = val_main_v30 (F := Ideal) (arg1 m c) :=
  (W8_of_ne m ρ c main_v29 (by decide)).trans (W7_v29 m ρ c)
theorem W8_arg5 (c : Dev nD) : W8 m ρ c (Proc.devRef .tc main_arg5) = arg5 m c :=
  (W8_of_ne m ρ c main_arg5 (by decide)).trans (W7_arg5 m ρ c)
theorem W8_arg6 (c : Dev nD) : W8 m ρ c (Proc.devRef .tc main_arg6) = arg6 m c :=
  (W8_of_ne m ρ c main_arg6 (by decide)).trans (W7_arg6 m ρ c)
theorem W8_arg7 (c : Dev nD) : W8 m ρ c (Proc.devRef .tc main_arg7) = arg7 m c :=
  (W8_of_ne m ρ c main_arg7 (by decide)).trans (W7_arg7 m ρ c)
theorem W8_arg8 (c : Dev nD) : W8 m ρ c (Proc.devRef .tc main_arg8) = arg8 m c :=
  (W8_of_ne m ρ c main_arg8 (by decide)).trans (W7_arg8 m ρ c)
theorem W8_arg9 (c : Dev nD) : W8 m ρ c (Proc.devRef .tc main_arg9) = arg9 m c :=
  (W8_of_ne m ρ c main_arg9 (by decide)).trans (W7_arg9 m ρ c)

/-! ### Region 2's entry -/

theorem W9_v68 (c : Dev nD) : W9 m ρ c (Proc.devRef .tc main_v68)
    = val_main_v94 (F := Ideal) (arg0 m c) (arg1 m c) (arg2 m c) (arg3 m c) (arg4 m c) (arg5 m c) :=
  mid2_v68 (W8 m ρ c) _ _ _ _ _ _ (W8_v52 m ρ c) (W8_v3 m ρ c) (W8_v6 m ρ c) (W8_v29 m ρ c) (W8_arg5 m ρ c)
theorem W9_v69 (c : Dev nD) : W9 m ρ c (Proc.devRef .tc main_v69) = shapeCast S1x256 (arg7 m c) shapeCasts_S256_S1x256 :=
  (mid2_v69 (W8 m ρ c)).trans (by rw [W8_arg7])
theorem W9_arg6 (c : Dev nD) : W9 m ρ c (Proc.devRef .tc main_arg6) = arg6 m c :=
  (mid2_keep_arg6 (W8 m ρ c)).trans (W8_arg6 m ρ c)
theorem W9_arg8 (c : Dev nD) : W9 m ρ c (Proc.devRef .tc main_arg8) = arg8 m c :=
  (mid2_keep_arg8 (W8 m ρ c)).trans (W8_arg8 m ρ c)
theorem W9_arg9 (c : Dev nD) : W9 m ρ c (Proc.devRef .tc main_arg9) = arg9 m c :=
  (mid2_keep_arg9 (W8 m ρ c)).trans (W8_arg9 m ρ c)

/-! ### The third region: the first decoder layer with its positive part -/

theorem W10_v70 (c : Dev nD) : W10 m ρ c (Proc.devRef .tc main_v70)
    = val_main_v99 (F := Ideal) (arg0 m c) (arg1 m c) (arg2 m c) (arg3 m c) (arg4 m c) (arg5 m c) (arg6 m c) (arg7 m c) := by
  refine (W10_arr m ρ c 3).trans ((Layer2.result (V9 m ρ) c).trans ?_)
  rw [show Layer2.xArr (V9 m ρ) c = _ from W9_v68 m ρ c, show Layer2.wArr (V9 m ρ) c = arg6 m c from W9_arg6 m ρ c,
    show Layer2.bArr (V9 m ρ) c = _ from W9_v69 m ρ c]
  exact DenseRows.rowsPos_eq_max_dot_add Cert.ReferenceIdeal.dot_S50000x64_S64x256_S50000x256_1_0_0_1_n_n rfl _ _ _ _ _ _ _ _

theorem W10_arg8 (c : Dev nD) : W10 m ρ c (Proc.devRef .tc main_arg8) = arg8 m c :=
  (W10_of_ne m ρ c main_arg8 (by decide)).trans (W9_arg8 m ρ c)
theorem W10_arg9 (c : Dev nD) : W10 m ρ c (Proc.devRef .tc main_arg9) = arg9 m c :=
  (W10_of_ne m ρ c main_arg9 (by decide)).trans (W9_arg9 m ρ c)

/-! ### Region 3's entry -/

theorem W11_v70 (c : Dev nD) : W11 m ρ c (Proc.devRef .tc main_v70)
    = val_main_v99 (F := Ideal) (arg0 m c) (arg1 m c) (arg2 m c) (arg3 m c) (arg4 m c) (arg5 m c) (arg6 m c) (arg7 m c) :=
  (mid3_keep_v70 (W10 m ρ c)).trans (W10_v70 m ρ c)
theorem W11_v71 (c : Dev nD) : W11 m ρ c (Proc.devRef .tc main_v71) = shapeCast S1x128 (arg9 m c) shapeCasts_S128_S1x128 :=
  (mid3_v71 (W10 m ρ c)).trans (by rw [W10_arg9])
theorem W11_arg8 (c : Dev nD) : W11 m ρ c (Proc.devRef .tc main_arg8) = arg8 m c :=
  (mid3_keep_arg8 (W10 m ρ c)).trans (W10_arg8 m ρ c)

/-! ### The last region: the second decoder layer -/

/-- The result array at the last segment boundary is the reference's result, stage for stage. -/
theorem W12_v72 (c : Dev nD) : W12 m ρ c (Proc.devRef .tc main_v72)
    = val_main_v103 (F := Ideal) (arg0 m c) (arg1 m c) (arg2 m c) (arg3 m c) (arg4 m c) (arg5 m c) (arg6 m c) (arg7 m c)
        (arg8 m c) (arg9 m c) := by
  refine (W12_arr m ρ c 3).trans ((Layer3.result (V11 m ρ) c).trans ?_)
  rw [show Layer3.xArr (V11 m ρ) c = _ from W11_v70 m ρ c, show Layer3.wArr (V11 m ρ) c = arg8 m c from W11_arg8 m ρ c,
    show Layer3.bArr (V11 m ρ) c = _ from W11_v71 m ρ c]
  exact DenseRows.rows_eq_dot_add Cert.ReferenceIdeal.dot_S50000x256_S256x128_S50000x128_1_0_0_1_n_n rfl _ _ _ _ _ _

end Cert.KernelIdeal.Stages

end
-- ==== Proof.lean ====
/-
  A two-layer graph convolutional encoder followed by a two-layer dense decoder, on 50000 nodes, against its
  plain reference: equal results over the extended reals.

  Both programs add a self loop to every node, count each node's incoming edges, take the inverse square roots
  of the counts (zero where a count is not positive), and weigh an edge by the product of its endpoints'
  values.  A graph layer multiplies the features by a weight matrix, gathers the product's rows at the edges'
  sources, scales them by the edge weights, adds them up at the edges' destinations and adds a bias; the first
  layer is followed by the positive part.  The decoder is two dense layers, the first with the positive part.
  The kernel program computes the four matrix products block by block in four regions, ten blocks of 5000
  rows each, with the bias of a dense layer added inside the region (a zero row in the graph layers, whose
  bias comes after the aggregation); the reference multiplies whole arrays.  A block of rows of a product
  depends on those rows only, so the blocks tile the whole product; adding a zero row changes nothing; and the
  format changes inside the regions are the identity on the extended reals.  Everything else is the same
  sequence of operations on both sides, so the two results are one function of the arguments and no
  finiteness of the inputs is used.

  The three runs: the word-level kernel and the idealized kernel terminate with their arguments unchanged by
  the frame of the four regions; the reference by its run.  The ideal pass rewrote nothing, so there is
  nothing to preserve.  For the values, the kernel's run is stated once more with the result array named
  (`Cert.KernelIdeal.Result.run_result`), the contents of that array are walked through the segments
  (`Cert.KernelIdeal.Stages.W12_v72`), and the reference's run names the same stages.
-/
import proofs.«134820_j16853451670120_1_alg».proof.Defs
import proofs.«134820_j16853451670120_1_alg».proof.Proof.Gen.Kernel
import proofs.«134820_j16853451670120_1_alg».proof.Proof.Gen.Kernel.Skeleton
import proofs.«134820_j16853451670120_1_alg».proof.Proof.Gen.Kernel.Launch
import proofs.«134820_j16853451670120_1_alg».proof.Proof.Gen.Kernel.Points
import proofs.«134820_j16853451670120_1_alg».proof.Proof.Gen.Kernel.Frame
import proofs.«134820_j16853451670120_1_alg».proof.Proof.Gen.KernelIdeal
import proofs.«134820_j16853451670120_1_alg».proof.Proof.Gen.KernelIdeal.Skeleton
import proofs.«134820_j16853451670120_1_alg».proof.Proof.Gen.KernelIdeal.Launch
import proofs.«134820_j16853451670120_1_alg».proof.Proof.Gen.KernelIdeal.Points
import proofs.«134820_j16853451670120_1_alg».proof.Proof.Gen.KernelIdeal.Frame
import proofs.«134820_j16853451670120_1_alg».proof.Proof.Gen.ReferenceIdeal
import proofs.«134820_j16853451670120_1_alg».proof.Proof.Gen.Pre_finite_inputs
import proofs.«134820_j16853451670120_1_alg».proof.Proof.KernelResult
import proofs.«134820_j16853451670120_1_alg».proof.Proof.KernelStages
import proofs.«134820_j16853451670120_1_alg».proof.Proof.RefRun
import proofs.«134820_j16853451670120_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel terminates with its arguments unchanged: the frame of its four regions. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference terminates with its arguments unchanged: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the reference's last stage of the
    arguments in their result arrays. -/
theorem algebraic : Cert.algebraic_KernelIdeal_ReferenceIdeal := by
  intro m ρ m' ρ' _ hagree
  refine ⟨fun c => Cert.KernelIdeal.Gen.W12 m ρ c (Proc.devRef .tc Cert.KernelIdeal.main_v72),
    Cert.KernelIdeal.Result.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  rw [Cert.ReferenceIdeal.ReadP.val_main_v103_eq, h0, h1, h2, h3, h4, h5, h6, h7, h8, h9]
  exact (Cert.KernelIdeal.Stages.W12_v72 m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
